-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S1x4096 : Shape := ⟨2, ![1, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S1x4096 : S_.BroadcastsInDim S1x4096 (![] : Fin 0 → Fin S1x4096.rank)
  reducesTo_S1x4096_S_d0_1 : S1x4096.ReducesTo [0, 1] S_

variable [Facts]

def fn_part1 {F : FTy → Type} [FloatOps F] (main_v13 : IVec S_ 1) (main_v16 : IVec S1x4096 1) : IVec S_ 1 :=
  let main_c_5 : IVec S_ 1 := constantI S_ 1 1#1
  let main_v17 : IVec S_ 1 := (fun x v => Host.reduce IntOp.andi x v reducesTo_S1x4096_S_d0_1 h_S_) main_v16 main_c_5
  let main_v18 : IVec S_ 1 := andi main_v13 main_v17
  main_v18

def fn {F : FTy → Type} [FloatOps F] (main_arg0 : FVec F S8192x4096 .f32) (main_arg1 : FVec F S4096x4096 .f32) (main_arg2 : FVec F S4096x4096 .f32) (main_arg3 : FVec F S1x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S1x4096 .f32 := Host.absf main_arg3
  let main_cst_4 : FVec F S_ .f32 := constant S_ .f32 0x7F800000#32
  let main_v15 : FVec F S1x4096 .f32 := broadcastInDim S1x4096 ![] bcast_S_S1x4096 main_cst_4
  let main_v16 : IVec S1x4096 1 := cmpf .olt main_v14 main_v15
  fn_part1 (F := F) main_v13 main_v16
-- ==== Kernel.lean ====
abbrev S8192x4096 : Shape := ⟨2, ![8192, 4096]⟩
abbrev S4096x4096 : Shape := ⟨2, ![4096, 4096]⟩
abbrev S1x4096 : Shape := ⟨2, ![1, 4096]⟩
abbrev S1024x512 : Shape := ⟨2, ![1024, 512]⟩
abbrev S512x512 : Shape := ⟨2, ![512, 512]⟩
abbrev S1x512 : Shape := ⟨2, ![1, 512]⟩

abbrev nBuf : Space → Nat
  | .hbm => 5
  | .vmem => 11
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .f32⟩
  | .hbm, ⟨3, _⟩ => ⟨S1x4096, .f32⟩
  | .hbm, ⟨4, _⟩ => ⟨S8192x4096, .f32⟩
  | .local _ .vmem, ⟨0, _⟩ => ⟨S1024x512, .f32⟩
  | .local _ .vmem, ⟨1, _⟩ => ⟨S1024x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S1x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 8, 8], ![false, false, false]⟩

def k0_cond2 (i : grid0.Coords) : BitVec 1 :=
  let arg2 : BitVec 32 := BitVec.ofNat 32 (i 2).val
  let c7_i32 : BitVec 32 := 7#32
  let v15 : BitVec 1 := Scalar.cmpi .eq arg2 c7_i32
  let v16 : BitVec 32 := Scalar.extui v15
  let c0_i32_10 : BitVec 32 := 0#32
  let v17 : BitVec 1 := Scalar.cmpi .ne v16 c0_i32_10
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  inb_S1x512_S1x512_0_0 : ∀ a, (![0, 0] : Fin 2 → Nat) a + S1x512.size a ≤ S1x512.size a
  h_S1x512 : 0 < S1x512.numel
  broadcasts_S1x512_S1024x512 : S1x512.Broadcasts S1024x512
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .f32 = 32 ∨ (Rect.block (s := S8192x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S4096x4096.size a
  hwx0_1 : ∀ i : grid0.Coords, EltTy.bits .f32 = 32 ∨ (Rect.block (s := S4096x4096) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S4096x4096.size a
  hwx0_2 : ∀ i : grid0.Coords, EltTy.bits .f32 = 32 ∨ (Rect.block (s := S4096x4096) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x4096.size a
  hwx0_3 : ∀ i : grid0.Coords, EltTy.bits .f32 = 32 ∨ (Rect.block (s := S1x4096) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S8192x4096.size a
  hwx0_4 : ∀ i : grid0.Coords, EltTy.bits .f32 = 32 ∨ (Rect.block (s := S8192x4096) S1024x512.size (cc0_transform_4 i) (hinb0_4 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1024x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S1x4096 : Shape := ⟨2, ![1, 4096]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .f32⟩
  | .hbm, ⟨3, _⟩ => ⟨S1x4096, .f32⟩
  | .hbm, ⟨4, _⟩ => ⟨S4096x4096, .f32⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S_, .f32⟩
  | .hbm, ⟨9, _⟩ => ⟨S8192x4096, .f32⟩
  | .hbm, ⟨10, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_cst : Ref sig .tc := ⟨.hbm, 8, rfl⟩
abbrev main_call0_v0 : Ref sig .tc := ⟨.hbm, 9, rfl⟩
abbrev main_v4 : Ref sig .tc := ⟨.hbm, 10, rfl⟩

abbrev nD : Nat := 1
abbrev τ : Topo := Topo.v7x

variable {F : FTy → Type} [FloatOps F]

class Facts₀ : Prop where
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Spec.lean ====
/-
  The mathematics of a dense layer whose weights are multiplied entry by entry with a second matrix, with no
  program in sight.

  For a batch `X` (8192 × 4096), a weight matrix `K` and an elementwise factor `W` (both 4096 × 4096; in the source
  a window of zeros and ones, but nothing here asks anything of its entries) and a bias row `B`
  (1 × 4096) the layer's value at row `r`, column `c` is

      max (∑ₖ X[r,k] · (K[k,c] · W[k,c]) + B[0,c]) 0        (k < 4096),

  over the extended reals. Everything here is about that sum read in pieces: its first `n` terms (`partialSum`), the
  fact that 512 more terms are one more block (`partialSum_block`), and the whole sum over `Fin 4096` as the
  4096-term partial sum (`sum_eq_partialSum`). Only commutative-monoid facts about `+` are used: a sum may be cut into
  consecutive blocks whatever its terms are, infinite ones included, so no finiteness of the inputs is needed.

  Arrays are read at natural-number coordinates (`rd`, zero outside the extents), so that a block's coordinate
  `512 · b + kk` is plain arithmetic.
-/
import Idealize.ShloMosaic.Lib.ValueIdx
import Idealize.ShloMosaic.PureOps.Ideal.Laws

noncomputable section

namespace Cert.MaskedDense

open Idealize.ShloMosaic Idealize.ShloMosaic.ValueIdx
open scoped BigOperators

/-- An `A × B` array read at natural-number coordinates: its entry inside the extents, zero outside. -/
def rd {A B : ℕ} (v : (⟨2, ![A, B]⟩ : Shape).Idx → EReal) (r c : ℕ) : EReal :=
  if h : r < A ∧ c < B then v (ix2 ⟨r, h.1⟩ ⟨c, h.2⟩) else 0

/-- An entry is `rd` at its coordinates' values: stated for ANY index, with the two values as separate naturals, so
    that it does not matter how the index was built and a block's coordinate can be given as
    `extent · block + offset`. -/
theorem rd_of_val {A B : ℕ} (v : (⟨2, ![A, B]⟩ : Shape).Idx → EReal) (j : (⟨2, ![A, B]⟩ : Shape).Idx) (r c : ℕ)
    (hr : (j 0).val = r) (hc : (j 1).val = c) : v j = rd v r c := by
  subst hr hc
  have h0 : (j 0).val < A := (j 0).isLt
  have h1 : (j 1).val < B := (j 1).isLt
  unfold rd
  rw [dif_pos ⟨h0, h1⟩]
  exact congrArg v (eq_ix2 j)

variable (X : (⟨2, ![8192, 4096]⟩ : Shape).Idx → EReal) (K W : (⟨2, ![4096, 4096]⟩ : Shape).Idx → EReal)
  (B : (⟨2, ![1, 4096]⟩ : Shape).Idx → EReal)

/-- The `k`-th term of entry (r, c): the batch entry times the weight times the factor, grouped as `x · (k · w)`. -/
def term (r c k : ℕ) : EReal := rd X r k * (rd K k c * rd W k c)

/-- The first `n` terms of entry (r, c). -/
def partialSum (r c n : ℕ) : EReal := ∑ k ∈ Finset.range n, term X K W r c k

theorem partialSum_zero (r c : ℕ) : partialSum X K W r c 0 = 0 := Finset.sum_range_zero _

/-- One more block of 512 terms: the terms `512 · b + kk`, `kk < 512`, added to the first `512 · b`. -/
theorem partialSum_block (r c b : ℕ) :
    partialSum X K W r c (512 * (b + 1))
      = partialSum X K W r c (512 * b) + ∑ kk : Fin 512, term X K W r c (512 * b + kk.val) := by
  unfold partialSum
  rw [show 512 * (b + 1) = 512 * b + 512 from by ring, Finset.sum_range_add]
  exact congrArg (_ + ·) (Finset.sum_range fun x => term X K W r c (512 * b + x))

/-- A product of three entries whose indices sit at (r, k), (k, c) and (k, c) is the `k`-th term of entry (r, c). -/
theorem term_of_val (jx : (⟨2, ![8192, 4096]⟩ : Shape).Idx) (jk jw : (⟨2, ![4096, 4096]⟩ : Shape).Idx) (r c k : ℕ)
    (hx0 : (jx 0).val = r) (hx1 : (jx 1).val = k) (hk0 : (jk 0).val = k) (hk1 : (jk 1).val = c)
    (hw0 : (jw 0).val = k) (hw1 : (jw 1).val = c) : X jx * (K jk * W jw) = term X K W r c k := by
  unfold term
  rw [rd_of_val X jx r k hx0 hx1, rd_of_val K jk k c hk0 hk1, rd_of_val W jw k c hw0 hw1]

/-- A sum over the whole reduction axis whose `k`-th summand is the `k`-th term is the 4096-term partial sum. -/
theorem sum_eq_partialSum (r c : ℕ) (f : Fin 4096 → EReal) (hf : ∀ k : Fin 4096, f k = term X K W r c k.val) :
    ∑ k, f k = partialSum X K W r c 4096 := by
  unfold partialSum
  rw [Finset.sum_range]
  exact Finset.sum_congr rfl fun k _ => hf k

/-- A sum over one block of the reduction axis whose `kk`-th summand is term `512 · b + kk`, added to the first
    `512 · b` terms, gives the first `512 · (b + 1)`. -/
theorem add_blockSum (r c b : ℕ) (f : Fin 512 → EReal) (hf : ∀ kk : Fin 512, f kk = term X K W r c (512 * b + kk.val)) :
    partialSum X K W r c (512 * b) + ∑ kk, f kk = partialSum X K W r c (512 * (b + 1)) := by
  rw [partialSum_block]
  exact congrArg (_ + ·) (Finset.sum_congr rfl fun kk _ => hf kk)

/-- THE LAYER, entry by entry: the row-by-column sum of those terms, plus the bias of the column, clamped below at
    zero (the zero is the float word `+0.0`, kept as written). -/
def layer : (⟨2, ![8192, 4096]⟩ : Shape).Idx → EReal :=
  fun i => max (partialSum X K W (i 0).val (i 1).val 4096 + rd B 0 (i 1).val) (Ideal.ofBits .f32 0x00000000#32)

end Cert.MaskedDense

end
-- ==== Proof.RefIsLayer.lean ====
/-
  The reference computes the layer of Spec.lean.

  Its host operations, in order: the elementwise product of the weights with the second matrix; the contraction
  of the batch's axis 1 with that product's axis 0; the bias row repeated down the rows; the sum of those two; a
  zero constant; that constant repeated over the whole array; and the maximum of the sum with it. Read at an
  output index (r, c) this is `max (∑ₖ X[r,k] · (K[k,c] · W[k,c]) + B[0,c]) 0` — the
  contraction's operand indices at (r, c) and `k` have coordinates (r, k) and (k, c), and the repeated bias is read
  at (0, c) — which is the layer's entry, the sum over `Fin 4096` being the 4096-term partial sum.
-/
import proofs.«124717_j11106785427704_1_alg».proof.Proof.Gen.ReferenceIdeal.Read
import proofs.«124717_j11106785427704_1_alg».proof.Proof.Spec

noncomputable section

namespace Cert.ReferenceIdeal.RefValue

open Cert.ReferenceIdeal Cert.ReferenceIdeal.Gen Idealize.ShloMosaic Idealize.ShloMosaic.ValueIdx
open Cert.MaskedDense

/-- The reference's result, as a function of its four arguments, is the layer. -/
theorem reference_is_layer (X : (⟨S8192x4096, .f32⟩ : BufTy).Contents (Elt Ideal))
    (K W : (⟨S4096x4096, .f32⟩ : BufTy).Contents (Elt Ideal)) (B : (⟨S1x4096, .f32⟩ : BufTy).Contents (Elt Ideal)) :
    Read.val_main_v4 (F := Ideal) X K W B = layer X K W B := by
  funext i
  rw [Read.val_main_v4_apply, Read.val_main_v3_apply, Read.val_main_v1_apply, Read.val_main_v2_apply,
    Read.val_main_call0_v0_apply, Read.val_main_call0_cst_apply]
  -- the contraction: its `k`-th summand has the batch at (r, k) and the product matrix at (k, c)
  have hs : (∑ k : Fin 4096, X (Read.lidx_main_v1 i k) * Read.val_main_v0 (F := Ideal) K W (Read.ridx_main_v1 i k))
      = partialSum X K W (i 0).val (i 1).val 4096 :=
    sum_eq_partialSum X K W (i 0).val (i 1).val _
      (fun k => term_of_val X K W (Read.lidx_main_v1 i k) (Read.ridx_main_v1 i k) (Read.ridx_main_v1 i k)
        (i 0).val (i 1).val k.val rfl rfl rfl rfl rfl rfl)
  rw [hs, rd_of_val B (Read.idx_main_v2 i) 0 (i 1).val rfl rfl]
  rfl

end Cert.ReferenceIdeal.RefValue

end
-- ==== Proof.Pieces.lean ====
/-
  What each control case of the body leaves behind, as a term of the body's own arithmetic.

  The body has three cases, by the position `k` along the reduction axis of the grid. At `k = 0` it stores a zero
  block into the accumulator, reads it back, and stores the accumulate step over it. At the other `k` it stores the
  accumulate step over what the accumulator held. At `k = 7` it moreover reads the accumulator back after that store
  and stores the epilogue (bias, then the clamp at zero) into the output block. Each store covers its whole buffer
  and each load reads a whole buffer, so what a buffer ends holding is the LAST payload stored into it, with every
  load replaced by the contents loaded — the accumulate step `k0_pay2 kernel window x acc`, the zero block
  `k0_pay1`, the epilogue `k0_pay3 acc bias`. These hold for any float instance.
-/
import proofs.«124717_j11106785427704_1_alg».proof.Proof.Gen.KernelIdeal.Frame
import Idealize.ShloMosaic.Lib.Pipeline.Value
import Idealize.ShloMosaic.Lib.Tactic

noncomputable section

namespace Cert.KernelIdeal.Acc

open Cert.KernelIdeal Cert.KernelIdeal.Gen Idealize.ShloMosaic Idealize.ShloMosaic.TcCoe Idealize.SL.Sem

variable {F : FTy → Type} [FloatOps F]

/-- Every load and store of the body is at offset (0, 0) of its buffer. -/
theorem hz : (![0, 0] : Fin 2 → Nat) = fun _ => 0 := funext fun a => by fin_cases a <;> rfl

/-- FIRST STEP (`k = 0`): the accumulator ends at the accumulate step over the zero block just stored. -/
theorem scratch_first (c : Dev nD) (i : grid0.Coords) (arg3 : Memref sig .tc .vmem S1024x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x512 .f32) (harg8 : arg8.IsWhole) (hc0 : cond0_0 i) (hc1 : ¬cond0_1 i)
    (x0 : Vec F S1024x512 .f32) (x1 : Vec F S512x512 .f32) (x2 : Vec F S512x512 .f32) (x3 : Vec F S1x512 .f32) :
    sout0_A_0 c i arg3 harg3 arg4 harg4 arg5 harg5 arg6 harg6 arg7 harg7 arg8 harg8 hc0 hc1 x0 x1 x2 x3 = k0_pay2 x1 x2 x0 k0_pay1 := by
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  sl_unfold_words
  rw [View.canon_cons_unit_zero (S := S1024x512) hz, View.readCov_unit_zero (S := S1024x512) _ hz]
  simp only [View.readAt_eq_ld, harg3.read_unread, harg4.read_unread, harg5.read_unread,
    View.ld_unit_zero (S := S1024x512) hz, View.ld_unit_zero (S := S512x512) hz]

/-- MIDDLE STEPS (`0 < k < 7`): the accumulator ends at the accumulate step over what it held. -/
theorem scratch_middle (c : Dev nD) (i : grid0.Coords) (arg3 : Memref sig .tc .vmem S1024x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x512 .f32) (harg8 : arg8.IsWhole) (hc0 : ¬cond0_0 i) (hc1 : ¬cond0_1 i)
    (x0 : Vec F S1024x512 .f32) (x1 : Vec F S512x512 .f32) (x2 : Vec F S512x512 .f32) (x3 : Vec F S1x512 .f32) (xs0 : Vec F S1024x512 .f32) :
    sout0_B_0 c i arg3 harg3 arg4 harg4 arg5 harg5 arg6 harg6 arg7 harg7 arg8 harg8 hc0 hc1 x0 x1 x2 x3 xs0 = k0_pay2 x1 x2 x0 xs0 := by
  unfold sout0_B_0
  rw [View.read_writes_eq_canon _ _ _ (scover0_B_0 c i arg3 harg3 arg4 harg4 arg5 harg5 arg6 harg6 arg7 harg7 arg8 harg8 hc0 hc1 x0 x1 x2 x3 xs0)]
  unfold kernelRun0_B
  dsimp only
  sl_unfold_words
  rw [View.canon_unit_zero (S := S1024x512) hz]
  simp only [View.readAt_eq_ld, harg3.read_unread, harg4.read_unread, harg5.read_unread, harg8.read_unread,
    View.ld_unit_zero (S := S1024x512) hz, View.ld_unit_zero (S := S512x512) hz]

/-- LAST STEP (`k = 7`), the accumulator: the same accumulate step over what it held. -/
theorem scratch_last (c : Dev nD) (i : grid0.Coords) (arg3 : Memref sig .tc .vmem S1024x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x512 .f32) (harg8 : arg8.IsWhole) (hc0 : ¬cond0_0 i) (hc1 : cond0_1 i)
    (x0 : Vec F S1024x512 .f32) (x1 : Vec F S512x512 .f32) (x2 : Vec F S512x512 .f32) (x3 : Vec F S1x512 .f32) (xs0 : Vec F S1024x512 .f32) :
    sout0_C_0 c i arg3 harg3 arg4 harg4 arg5 harg5 arg6 harg6 arg7 harg7 arg8 harg8 hc0 hc1 x0 x1 x2 x3 xs0 = k0_pay2 x1 x2 x0 xs0 := by
  unfold sout0_C_0
  rw [View.read_writes_eq_canon _ _ _ (scover0_C_0 c i arg3 harg3 arg4 harg4 arg5 harg5 arg6 harg6 arg7 harg7 arg8 harg8 hc0 hc1 x0 x1 x2 x3 xs0)]
  unfold kernelRun0_C
  dsimp only
  sl_unfold_words
  rw [View.canon_unit_zero (S := S1024x512) hz]
  simp only [View.readAt_eq_ld, harg3.read_unread, harg4.read_unread, harg5.read_unread, harg8.read_unread,
    View.ld_unit_zero (S := S1024x512) hz, View.ld_unit_zero (S := S512x512) hz]

/-- LAST STEP (`k = 7`), the output block: the epilogue of that final accumulator and the bias block. -/
theorem out_last (c : Dev nD) (i : grid0.Coords) (arg3 : Memref sig .tc .vmem S1024x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x512 .f32) (harg8 : arg8.IsWhole) (hc0 : ¬cond0_0 i) (hc1 : cond0_1 i)
    (x0 : Vec F S1024x512 .f32) (x1 : Vec F S512x512 .f32) (x2 : Vec F S512x512 .f32) (x3 : Vec F S1x512 .f32) (xs0 : Vec F S1024x512 .f32) :
    out0_C_4 c i arg3 harg3 arg4 harg4 arg5 harg5 arg6 harg6 arg7 harg7 arg8 harg8 hc0 hc1 x0 x1 x2 x3 xs0 = k0_pay3 (k0_pay2 x1 x2 x0 xs0) x3 := by
  unfold out0_C_4
  rw [View.read_writes_eq_canon _ _ _ (cover0_C_4 c i arg3 harg3 arg4 harg4 arg5 harg5 arg6 harg6 arg7 harg7 arg8 harg8 hc0 hc1 x0 x1 x2 x3 xs0)]
  unfold kernelRun0_C
  dsimp only
  sl_unfold_words
  rw [View.canon_unit_zero (S := S1024x512) hz, View.readCov_unit_zero (S := S1024x512) _ hz]
  simp only [View.readAt_eq_ld, harg3.read_unread, harg4.read_unread, harg5.read_unread, harg6.read_unread,
    harg8.read_unread, View.ld_unit_zero (S := S1024x512) hz, View.ld_unit_zero (S := S512x512) hz,
    View.ld_unit_zero (S := S1x512) hz]

end Cert.KernelIdeal.Acc

end
-- ==== Proof.Payload.lean ====
/-
  The body's arithmetic, entry by entry, over the extended reals.

  The accumulate step adds to the accumulator block the product of the batch block (1024 × 512) with the elementwise
  product of the weight and factor blocks (512 × 512 each), contracted over the batch block's columns: at entry `j`
  of the accumulator, `acc j + ∑ₖₖ x[j₀, kk] · (kernel[kk, j₁] · window[kk, j₁])`, `kk < 512`. The two changes of
  float format on the way are the identity on extended reals, and the product is taken into a zero accumulator, so
  no other term enters. The zero block is zero at every entry. The epilogue adds the bias block's entry of the
  same column (its one row repeated down the rows) and takes the maximum with the zero word.
-/
import proofs.«124717_j11106785427704_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Acc

open Cert.KernelIdeal Cert.KernelIdeal.Gen Idealize.ShloMosaic Idealize.ShloMosaic.ValueIdx

/-! ## The contraction's operand indices, coordinate by coordinate -/

theorem lhs_axis0 (i : S1024x512.Idx) (q : dot_S1024x512_S512x512_S1024x512_1_0_0_1_n_n.contr.Idx) :
    (dot_S1024x512_S512x512_S1024x512_1_0_0_1_n_n.lhsIdx i q 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
theorem lhs_axis1 (i : S1024x512.Idx) (q : dot_S1024x512_S512x512_S1024x512_1_0_0_1_n_n.contr.Idx) :
    (dot_S1024x512_S512x512_S1024x512_1_0_0_1_n_n.lhsIdx i q 1).val = (q ⟨0, by decide⟩).val :=
  dot_S1024x512_S512x512_S1024x512_1_0_0_1_n_n.lhsIdx_val_of_single rfl i q
theorem rhs_axis0 (i : S1024x512.Idx) (q : dot_S1024x512_S512x512_S1024x512_1_0_0_1_n_n.contr.Idx) :
    (dot_S1024x512_S512x512_S1024x512_1_0_0_1_n_n.rhsIdx i q 0).val = (q ⟨0, by decide⟩).val :=
  dot_S1024x512_S512x512_S1024x512_1_0_0_1_n_n.rhsIdx_val_of_single rfl i q
theorem rhs_axis1 (i : S1024x512.Idx) (q : dot_S1024x512_S512x512_S1024x512_1_0_0_1_n_n.contr.Idx) :
    (dot_S1024x512_S512x512_S1024x512_1_0_0_1_n_n.rhsIdx i q 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

/-- Entry `j` of the accumulator and position `kk` of the contraction: the batch block is read at (row of `j`, kk), -/
abbrev xIdx (j : S1024x512.Idx) (kk : Fin 512) : S1024x512.Idx := fun a => match a with
  | ⟨0, _⟩ => ⟨(j 0).val, (j 0).isLt⟩
  | ⟨1, _⟩ => ⟨kk.val, kk.isLt⟩
/-- the weight and factor blocks at (kk, column of `j`), -/
abbrev wIdx (j : S1024x512.Idx) (kk : Fin 512) : S512x512.Idx := fun a => match a with
  | ⟨0, _⟩ => ⟨kk.val, kk.isLt⟩
  | ⟨1, _⟩ => ⟨(j 1).val, (j 1).isLt⟩
/-- and the epilogue reads the bias block at (0, column of `j`). -/
abbrev bIdx (j : S1024x512.Idx) : S1x512.Idx := fun a => match a with
  | ⟨0, _⟩ => ⟨0, Nat.one_pos⟩
  | ⟨1, _⟩ => ⟨(j 1).val, (j 1).isLt⟩

/-! ## The three payloads at an entry -/

/-- The zero block is zero everywhere. -/
theorem zero_apply (j : S1024x512.Idx) : k0_pay1 (F := Ideal) j = 0 := by
  unfold k0_pay1
  rw [shapeCast_self]
  exact Ideal.ofBits_zero_f32

/-- THE ACCUMULATE STEP at an entry: the accumulator there plus the block's 512 products. -/
theorem step_apply (kb wb : FVec Ideal S512x512 .f32) (xb acc : FVec Ideal S1024x512 .f32) (j : S1024x512.Idx) :
    k0_pay2 (F := Ideal) kb wb xb acc j = acc j + ∑ kk : Fin 512, xb (xIdx j kk) * (kb (wIdx j kk) * wb (wIdx j kk)) := by
  unfold k0_pay2
  rw [shapeCast_self, addf_apply]
  simp only [matmul]
  rw [Ideal.matmul_constant_zero_apply, ← Equiv.sum_comp (contrEquiv1 dot_S1024x512_S512x512_S1024x512_1_0_0_1_n_n 512 rfl rfl).symm]
  refine congrArg (acc j + ·) (Finset.sum_congr rfl fun kk _ => ?_)
  have hk := contrEquiv1_symm_val dot_S1024x512_S512x512_S1024x512_1_0_0_1_n_n 512 rfl rfl kk
  have el : dot_S1024x512_S512x512_S1024x512_1_0_0_1_n_n.lhsIdx j ((contrEquiv1 dot_S1024x512_S512x512_S1024x512_1_0_0_1_n_n 512 rfl rfl).symm kk) = xIdx j kk := funext fun a => Fin.ext (by
    match a with
    | ⟨0, _⟩ => exact lhs_axis0 _ _
    | ⟨1, _⟩ => exact (lhs_axis1 _ _).trans hk)
  have er : dot_S1024x512_S512x512_S1024x512_1_0_0_1_n_n.rhsIdx j ((contrEquiv1 dot_S1024x512_S512x512_S1024x512_1_0_0_1_n_n 512 rfl rfl).symm kk) = wIdx j kk := funext fun a => Fin.ext (by
    match a with
    | ⟨0, _⟩ => exact (rhs_axis0 _ _).trans hk
    | ⟨1, _⟩ => exact rhs_axis1 _ _)
  rw [el, er]
  rfl

/-- THE EPILOGUE at an entry: accumulator plus the column's bias, clamped below at the zero word. -/
theorem epilogue_apply (acc : FVec Ideal S1024x512 .f32) (bb : FVec Ideal S1x512 .f32) (j : S1024x512.Idx) :
    k0_pay3 (F := Ideal) acc bb j = max (acc j + bb (bIdx j)) (Ideal.ofBits .f32 0x00000000#32) := by
  unfold k0_pay3
  rw [maximumf_apply, addf_apply, broadcastTo_apply bb broadcasts_S1x512_S1024x512 j (bIdx j) (fun a => match a with
    | ⟨0, _⟩ => by show 0 = if (1 : Nat) = 1 then 0 else (j 0).val; rw [if_pos rfl]
    | ⟨1, _⟩ => by show (j 1).val = if (512 : Nat) = 1 then 0 else (j 1).val; rw [if_neg (by decide)])]
  rfl

end Cert.KernelIdeal.Acc

end
-- ==== Proof.Invariant.lean ====
/-
  The accumulator, point by point.

  The grid is 8 × 8 × 8, walked with the reduction position `k` fastest: point `n` is at row block `n / 64`, column
  block `n / 8 % 8` and reduction position `n % 8`. At that point the body sees rows `1024 · (n / 64) + ·` and
  reduction columns `512 · (n % 8) + ·` of the batch, reduction rows `512 · (n % 8) + ·` and columns
  `512 · (n / 8 % 8) + ·` of the weights and of the factor, and columns `512 · (n / 8 % 8) + ·` of the bias row.

  THE INVARIANT: after point `n` the accumulator's entry (p, q) is the sum of the first `512 · (n % 8 + 1)` terms of
  the layer's entry at row `1024 · (n / 64) + p`, column `512 · (n / 8 % 8) + q`. At `n % 8 = 0` the step runs over
  the zero block, which is the empty sum; at every other point the point before it is in the same row and column
  block, one reduction position earlier, and the step adds the next 512 terms.
-/
import proofs.«124717_j11106785427704_1_alg».proof.Proof.Pieces
import proofs.«124717_j11106785427704_1_alg».proof.Proof.Payload
import proofs.«124717_j11106785427704_1_alg».proof.Proof.Spec

noncomputable section

namespace Cert.KernelIdeal.Acc

open Cert.KernelIdeal Cert.KernelIdeal.Gen Idealize.ShloMosaic Idealize.ShloMosaic.TcCoe Idealize.SL.Sem
open Idealize.ShloMosaic.ValueIdx Cert.MaskedDense

variable (m : (ℓ : Loc nD τ sig) → Buf (Elt Ideal) ℓ)

/-! ## The argument arrays and their blocks, at their literal types -/

/-- The batch, the weights, the elementwise factor and the bias row, as launched on core `c`. -/
abbrev batch (c : Dev nD) : (⟨2, ![8192, 4096]⟩ : Shape).Idx → EReal := m ((c : Thread nD τ).loc main_arg0)
abbrev weights (c : Dev nD) : (⟨2, ![4096, 4096]⟩ : Shape).Idx → EReal := m ((c : Thread nD τ).loc main_arg1)
abbrev factor (c : Dev nD) : (⟨2, ![4096, 4096]⟩ : Shape).Idx → EReal := m ((c : Thread nD τ).loc main_arg2)
abbrev bias (c : Dev nD) : (⟨2, ![1, 4096]⟩ : Shape).Idx → EReal := m ((c : Thread nD τ).loc main_arg3)

/-- The blocks of them the body is handed at point `t`. -/
abbrev xblk (c : Dev nD) (t : Fin cfg0.N) : FVec Ideal S1024x512 .f32 := iblk m c 0 t
abbrev kblk (c : Dev nD) (t : Fin cfg0.N) : FVec Ideal S512x512 .f32 := iblk m c 1 t
abbrev wblk (c : Dev nD) (t : Fin cfg0.N) : FVec Ideal S512x512 .f32 := iblk m c 2 t
abbrev bblk (c : Dev nD) (t : Fin cfg0.N) : FVec Ideal S1x512 .f32 := iblk m c 3 t

/-- Where each window's block sits at point `t`, decided over the 512 points. -/
theorem index_facts : ∀ t : Fin cfg0.N,
    win0_0.index t (0 : Fin 2) = t.val / 64 ∧ win0_0.index t (1 : Fin 2) = t.val % 8
    ∧ win0_1.index t (0 : Fin 2) = t.val % 8 ∧ win0_1.index t (1 : Fin 2) = t.val / 8 % 8
    ∧ win0_2.index t (0 : Fin 2) = t.val % 8 ∧ win0_2.index t (1 : Fin 2) = t.val / 8 % 8
    ∧ win0_3.index t (0 : Fin 2) = 0 ∧ win0_3.index t (1 : Fin 2) = t.val / 8 % 8
    ∧ win0_4.index t (0 : Fin 2) = t.val / 64 ∧ win0_4.index t (1 : Fin 2) = t.val / 8 % 8 :=
  (by decide +kernel : ∀ t : Fin grid0.N, _)

/-- The batch block's entry `y` is the batch at row `1024 · (t / 64) + y₀`, column `512 · (t % 8) + y₁`. -/
theorem xblk_apply (c : Dev nD) (t : Fin cfg0.N) (y : S1024x512.Idx) :
    xblk m c t y = rd (batch m c) (1024 * (t.val / 64) + (y 0).val) (512 * (t.val % 8) + (y 1).val) := by
  obtain ⟨e0, e1, -⟩ := index_facts t
  show V m c main_arg0 (((cfg0.win 0).blk t).view.emb y) = _
  refine rd_of_val (batch m c) _ _ _ ?_ ?_
  · show win0_0.index t (0 : Fin 2) * 1024 + 1 * (y 0).val = _; omega
  · show win0_0.index t (1 : Fin 2) * 512 + 1 * (y 1).val = _; omega

/-- The weight block's entry `z` is the weights at row `512 · (t % 8) + z₀`, column `512 · (t / 8 % 8) + z₁`. -/
theorem kblk_apply (c : Dev nD) (t : Fin cfg0.N) (z : S512x512.Idx) :
    kblk m c t z = rd (weights m c) (512 * (t.val % 8) + (z 0).val) (512 * (t.val / 8 % 8) + (z 1).val) := by
  obtain ⟨-, -, e2, e3, -⟩ := index_facts t
  show V m c main_arg1 (((cfg0.win 1).blk t).view.emb z) = _
  refine rd_of_val (weights m c) _ _ _ ?_ ?_
  · show win0_1.index t (0 : Fin 2) * 512 + 1 * (z 0).val = _; omega
  · show win0_1.index t (1 : Fin 2) * 512 + 1 * (z 1).val = _; omega

/-- The factor block sits where the weight block does. -/
theorem wblk_apply (c : Dev nD) (t : Fin cfg0.N) (z : S512x512.Idx) :
    wblk m c t z = rd (factor m c) (512 * (t.val % 8) + (z 0).val) (512 * (t.val / 8 % 8) + (z 1).val) := by
  obtain ⟨-, -, -, -, e4, e5, -⟩ := index_facts t
  show V m c main_arg2 (((cfg0.win 2).blk t).view.emb z) = _
  refine rd_of_val (factor m c) _ _ _ ?_ ?_
  · show win0_2.index t (0 : Fin 2) * 512 + 1 * (z 0).val = _; omega
  · show win0_2.index t (1 : Fin 2) * 512 + 1 * (z 1).val = _; omega

/-- The bias block's entry `z` is the bias row at column `512 · (t / 8 % 8) + z₁` (its one row is row 0). -/
theorem bblk_apply (c : Dev nD) (t : Fin cfg0.N) (z : S1x512.Idx) :
    bblk m c t z = rd (bias m c) 0 (512 * (t.val / 8 % 8) + (z 1).val) := by
  obtain ⟨-, -, -, -, -, -, e6, e7, -⟩ := index_facts t
  have hz0 : (z 0).val < 1 := (z 0).isLt
  show V m c main_arg3 (((cfg0.win 3).blk t).view.emb z) = _
  refine rd_of_val (bias m c) _ _ _ ?_ ?_
  · show win0_3.index t (0 : Fin 2) * 1 + 1 * (z 0).val = _; omega
  · show win0_3.index t (1 : Fin 2) * 512 + 1 * (z 1).val = _; omega

/-! ## One accumulate step -/

/-- At point `t` — row block `ri`, column block `ci`, reduction position `b` — the accumulate step over an
    accumulator whose entry `y` holds the first `512 · b` terms leaves the first `512 · (b + 1)` there: the block's
    `kk`-th product is term `512 · b + kk` of that entry. -/
theorem step_sum (c : Dev nD) (t : Fin cfg0.N) (acc : FVec Ideal S1024x512 .f32) (y : S1024x512.Idx) (ri ci b : ℕ)
    (hri : t.val / 64 = ri) (hci : t.val / 8 % 8 = ci) (hb : t.val % 8 = b)
    (hacc : acc y = partialSum (batch m c) (weights m c) (factor m c) (1024 * ri + (y 0).val) (512 * ci + (y 1).val) (512 * b)) :
    k0_pay2 (F := Ideal) (kblk m c t) (wblk m c t) (xblk m c t) acc y
      = partialSum (batch m c) (weights m c) (factor m c) (1024 * ri + (y 0).val) (512 * ci + (y 1).val) (512 * (b + 1)) := by
  rw [step_apply, hacc]
  refine add_blockSum _ _ _ _ _ b _ (fun kk => ?_)
  rw [xblk_apply, kblk_apply, wblk_apply]
  subst hri hci hb
  rfl

/-! ## The invariant -/

/-- At a point with reduction position 0 the accumulator ends at the first 512 terms. -/
theorem scratch_at_first (c : Dev nD) (t : Fin cfg0.N) (h0 : t.val % 8 = 0) (y : S1024x512.Idx) :
    (outsAt0 m c t.val t.isLt).2 y
      = partialSum (batch m c) (weights m c) (factor m c) (1024 * (t.val / 64) + (y 0).val) (512 * (t.val / 8 % 8) + (y 1).val) (512 * (t.val % 8 + 1)) := by
  have h1 : ¬t.val % 8 = 7 := by omega
  rw [outsAt0_A m c t h0 h1]
  dsimp only
  refine (congrFun (scratch_first (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)) y).trans ?_
  have e := step_sum m c t (k0_pay1 (F := Ideal)) y (t.val / 64) (t.val / 8 % 8) 0 rfl rfl h0
    (by rw [zero_apply, Nat.mul_zero, partialSum_zero])
  rw [h0]
  exact e

/-- THE INVARIANT, by induction on the point. -/
theorem scratch_eq (c : Dev nD) : ∀ (n : ℕ) (h : n < cfg0.N) (y : S1024x512.Idx),
    (outsAt0 m c n h).2 y
      = partialSum (batch m c) (weights m c) (factor m c) (1024 * (n / 64) + (y 0).val) (512 * (n / 8 % 8) + (y 1).val) (512 * (n % 8 + 1))
  | 0, h, y => scratch_at_first m c ⟨0, h⟩ rfl y
  | n + 1, h, y => by
    have hN : n + 1 < 512 := lt_of_lt_of_eq h (show cfg0.N = 512 from N_0)
    by_cases h0 : (n + 1) % 8 = 0
    · exact scratch_at_first m c ⟨n + 1, h⟩ h0 y
    · -- the point before is in the same row and column block, one reduction position earlier
      have a1 : (n + 1) / 64 = n / 64 := by omega
      have a2 : (n + 1) / 8 % 8 = n / 8 % 8 := by omega
      have a3 : (n + 1) % 8 = n % 8 + 1 := by omega
      have ih := scratch_eq c n (Nat.lt_of_succ_lt h) y
      by_cases h1 : (n + 1) % 8 = 7
      · rw [outsAt0_C m c ⟨n + 1, h⟩ h0 h1]
        dsimp only
        refine (congrFun (scratch_last (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩) (iblk m c 3 ⟨n + 1, h⟩) (outsAt0 m c n (Nat.lt_of_succ_lt h)).2) y).trans ?_
        rw [a1, a2, a3]
        exact step_sum m c ⟨n + 1, h⟩ (outsAt0 m c n (Nat.lt_of_succ_lt h)).2 y (n / 64) (n / 8 % 8) (n % 8 + 1) a1 a2 a3 ih
      · rw [outsAt0_B m c ⟨n + 1, h⟩ h0 h1]
        dsimp only
        refine (congrFun (scratch_middle (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (iblk m c 2 ⟨n + 1, h⟩) (iblk m c 3 ⟨n + 1, h⟩) (outsAt0 m c n (Nat.lt_of_succ_lt h)).2) y).trans ?_
        rw [a1, a2, a3]
        exact step_sum m c ⟨n + 1, h⟩ (outsAt0 m c n (Nat.lt_of_succ_lt h)).2 y (n / 64) (n / 8 % 8) (n % 8 + 1) a1 a2 a3 ih

end Cert.KernelIdeal.Acc

end
-- ==== Proof.Final.lean ====
/-
  From the accumulator to the result array.

  The output block is written only at reduction position 7, and there it holds the epilogue of the accumulator after
  that point's step: all `512 · 8 = 4096` terms of the entry, plus the column's bias, clamped at zero — the layer's
  entry at row `1024 · (t / 64) + p`, column `512 · (t / 8 % 8) + q`, which is where block `t` of the result array
  sits. So what such a point writes back is its block of the layer. The 64 such points' blocks tile the
  8192 × 4096 array — entry (r, c) is in the block of point `64 · (r / 1024) + 8 · (c / 512) + 7` — so the array ends
  holding the layer.
-/
import proofs.«124717_j11106785427704_1_alg».proof.Proof.Invariant
import proofs.«124717_j11106785427704_1_alg».proof.Proof.Gen.KernelIdeal.Value

noncomputable section

namespace Cert.KernelIdeal.Acc

open Cert.KernelIdeal Cert.KernelIdeal.Gen Idealize.ShloMosaic Idealize.ShloMosaic.TcCoe Idealize.SL.Sem
open Idealize.ShloMosaic.ValueIdx Cert.MaskedDense
open Idealize.ShloMosaic.Pipeline (Dat)

variable (m : (ℓ : Loc nD τ sig) → Buf (Elt Ideal) ℓ) (ρ : Dev nD → PrngReg)

/-- At a point with reduction position 7 the output block's entry `y` is the layer's entry where block `t` puts it. -/
theorem out_entry (c : Dev nD) (t : Fin cfg0.N) (h0 : ¬t.val % 8 = 0) (h7 : t.val % 8 = 7) (y : S1024x512.Idx) :
    out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h7) (iblk m c 0 t) (iblk m c 1 t) (iblk m c 2 t) (iblk m c 3 t)
        (outsAt0 m c (t.val - 1) (Nat.lt_of_le_of_lt (Nat.sub_le _ _) t.isLt)).2 y
      = layer (batch m c) (weights m c) (factor m c) (bias m c) (((cfg0.win 4).blk t).view.emb y) := by
  obtain ⟨-, -, -, -, -, -, -, -, e8, e9⟩ := index_facts t
  have hN : t.val < 512 := lt_of_lt_of_eq t.isLt (show cfg0.N = 512 from N_0)
  have hprev : t.val - 1 < cfg0.N := Nat.lt_of_le_of_lt (Nat.sub_le _ _) t.isLt
  -- the point before: same row and column block, reduction position 6
  have a1 : (t.val - 1) / 64 = t.val / 64 := by omega
  have a2 : (t.val - 1) / 8 % 8 = t.val / 8 % 8 := by omega
  have a3 : (t.val - 1) % 8 + 1 = 7 := by omega
  have ih := scratch_eq m c (t.val - 1) hprev y
  rw [a1, a2, a3] at ih
  have hs := step_sum m c t (outsAt0 m c (t.val - 1) hprev).2 y (t.val / 64) (t.val / 8 % 8) 7 rfl rfl h7 ih
  refine (congrFun (out_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h7) (iblk m c 0 t) (iblk m c 1 t) (iblk m c 2 t) (iblk m c 3 t) (outsAt0 m c (t.val - 1) hprev).2) y).trans ?_
  refine (epilogue_apply (k0_pay2 (F := Ideal) (kblk m c t) (wblk m c t) (xblk m c t) (outsAt0 m c (t.val - 1) hprev).2) (bblk m c t) y).trans ?_
  rw [hs, bblk_apply]
  -- where block `t` of the result array puts entry `y`
  have c0 : ((((cfg0.win 4).blk t).view.emb y) 0).val = 1024 * (t.val / 64) + (y 0).val := by
    show win0_4.index t (0 : Fin 2) * 1024 + 1 * (y 0).val = _; omega
  have c1 : ((((cfg0.win 4).blk t).view.emb y) 1).val = 512 * (t.val / 8 % 8) + (y 1).val := by
    show win0_4.index t (1 : Fin 2) * 512 + 1 * (y 1).val = _; omega
  show _ = max (partialSum (batch m c) (weights m c) (factor m c) ((((cfg0.win 4).blk t).view.emb y) 0).val ((((cfg0.win 4).blk t).view.emb y) 1).val 4096
      + rd (bias m c) 0 ((((cfg0.win 4).blk t).view.emb y) 1).val) (Ideal.ofBits .f32 0x00000000#32)
  rw [c0, c1]

/-- WHAT A WRITING POINT WRITES BACK is its block of the layer. -/
theorem flushed_eq (c : Dev nD) (t : Fin cfg0.N) (hf : (cfg0.win 4).flush t = true) :
    (dats m 0 c).flushed 4 t = ((cfg0.win 4).blk t).view.read (Elt Ideal) (layer (batch m c) (weights m c) (factor m c) (bias m c)) := by
  have h7 : t.val % 8 = 7 := (flush0_4 t).mp hf
  have h0 : ¬t.val % 8 = 0 := by omega
  rw [Value.flushed4_C m c t h0 h7]
  funext y
  exact out_entry m c t h0 h7 y

/-- An entry of the result array is in point `t`'s block iff each coordinate is in the block's range. -/
theorem mem_blk (t : Fin cfg0.N) (i : S8192x4096.Idx) :
    i ∈ ((cfg0.win 4).blk t).view.set ↔ ∀ a : Fin 2, win0_4.index t a * S1024x512.size a ≤ (i a).val ∧ (i a).val < win0_4.index t a * S1024x512.size a + S1024x512.size a := by
  show i ∈ ((View.whole main_v0).slice (win0_4.rect t)).set ↔ _
  rw [View.set_slice_whole, Rect.mem_set_unit]
  exact Iff.rfl

/-- THE COVER: entry (r, c) is in the block of the writing point `64 · (r / 1024) + 8 · (c / 512) + 7`. -/
theorem cover (i : S8192x4096.Idx) :
    ∃ t : Fin cfg0.N, (cfg0.win 4).flush t = true ∧ i ∈ ((cfg0.win 4).blk t).view.set := by
  have hi0 : (i 0).val < 8192 := (i 0).isLt
  have hi1 : (i 1).val < 4096 := (i 1).isLt
  have hN : cfg0.N = 512 := N_0
  obtain ⟨n, hn⟩ : ∃ n : ℕ, n = 64 * ((i 0).val / 1024) + 8 * ((i 1).val / 512) + 7 := ⟨_, rfl⟩
  have hlt : n < cfg0.N := by omega
  obtain ⟨-, -, -, -, -, -, -, -, e8, e9⟩ := index_facts ⟨n, hlt⟩
  have e8' : win0_4.index ⟨n, hlt⟩ (0 : Fin 2) = n / 64 := e8
  have e9' : win0_4.index ⟨n, hlt⟩ (1 : Fin 2) = n / 8 % 8 := e9
  refine ⟨⟨n, hlt⟩, (flush0_4 ⟨n, hlt⟩).mpr (by show n % 8 = 7; omega), ?_⟩
  rw [mem_blk]
  intro a
  match a with
  | ⟨0, _⟩ => show win0_4.index ⟨n, hlt⟩ (0 : Fin 2) * 1024 ≤ (i 0).val ∧ (i 0).val < win0_4.index ⟨n, hlt⟩ (0 : Fin 2) * 1024 + 1024; omega
  | ⟨1, _⟩ => show win0_4.index ⟨n, hlt⟩ (1 : Fin 2) * 512 ≤ (i 1).val ∧ (i 1).val < win0_4.index ⟨n, hlt⟩ (1 : Fin 2) * 512 + 512; omega

/-- THE RESULT ARRAY after the run is the layer of the argument arrays. -/
theorem final (c : Dev nD) : (dats m 0 c).arrAt 4 cfg0.N = layer (batch m c) (weights m c) (factor m c) (bias m c) :=
  (dats m 0 c).arrAt_eq_of_cover 4 (layer (batch m c) (weights m c) (factor m c) (bias m c)) (fun t hf => flushed_eq m c t hf) cover

/-- The run, read: every weakly fair execution terminates with the result array at the layer of the argument arrays and
    the arguments unchanged. -/
theorem run : θ_run defs (onTc (τ := τ) (main (F := Ideal))) ⟨m, fun _ => 0, ρ⟩ fun r => ∀ c : Dev nD,
      r.2.mem ((c : Thread nD τ).loc main_v0) = layer (batch m c) (weights m c) (factor m c) (bias m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Acc

end
-- ==== Proof.lean ====
/-
  The certificate of a dense layer with elementwise-multiplied weights, `max (x · (kernel ⊙ window) + bias) 0`,
  computed by a kernel that walks an 8 × 8 × 8 grid — row blocks of 1024, column blocks of 512, reduction blocks
  of 512 — accumulating one block product per point, against one whole contraction.

  Over the extended reals both are the same function of the four arrays (Proof/Spec.lean's `layer`). The
  reference is that function operation by operation (Proof/RefIsLayer.lean). The kernel's accumulator holds, after
  each point, the first `512 · (k + 1)` terms of its entries' sums (Proof/Invariant.lean, over the body's three
  cases in Proof/Pieces.lean and its arithmetic in Proof/Payload.lean), so at `k = 7` the block written back is the
  layer's, and those blocks tile the result (Proof/Final.lean). The one law used is that a finite sum may be cut
  into consecutive blocks, which holds for any extended reals: the inputs' finiteness is never opened. The
  changes of float format on the way to the matrix unit are the identity here, and nothing was rewritten on the
  way from the kernel to its idealization, so that conjunct is `True`.
-/
import proofs.«124717_j11106785427704_1_alg».proof.Defs
import proofs.«124717_j11106785427704_1_alg».proof.Proof.Gen.Kernel
import proofs.«124717_j11106785427704_1_alg».proof.Proof.Gen.Kernel.Skeleton
import proofs.«124717_j11106785427704_1_alg».proof.Proof.Gen.Kernel.Launch
import proofs.«124717_j11106785427704_1_alg».proof.Proof.Gen.Kernel.Points
import proofs.«124717_j11106785427704_1_alg».proof.Proof.Gen.Kernel.Frame
import proofs.«124717_j11106785427704_1_alg».proof.Proof.Gen.KernelIdeal
import proofs.«124717_j11106785427704_1_alg».proof.Proof.Gen.KernelIdeal.Skeleton
import proofs.«124717_j11106785427704_1_alg».proof.Proof.Gen.KernelIdeal.Launch
import proofs.«124717_j11106785427704_1_alg».proof.Proof.Gen.KernelIdeal.Points
import proofs.«124717_j11106785427704_1_alg».proof.Proof.Gen.KernelIdeal.Frame
import proofs.«124717_j11106785427704_1_alg».proof.Proof.Gen.ReferenceIdeal
import proofs.«124717_j11106785427704_1_alg».proof.Proof.Gen.KernelIdeal.Value
import proofs.«124717_j11106785427704_1_alg».proof.Proof.Gen.ReferenceIdeal.Run
import proofs.«124717_j11106785427704_1_alg».proof.Proof.Gen.ReferenceIdeal.Read
import proofs.«124717_j11106785427704_1_alg».proof.Proof.Gen.Pre_finite_inputs
import proofs.«124717_j11106785427704_1_alg».proof.Proof.RefIsLayer
import proofs.«124717_j11106785427704_1_alg».proof.Proof.Final
import Idealize.ShloMosaic.Adequacy
import Idealize.ShloMosaic.Init

noncomputable section

namespace Cert.Proof

open Idealize.ShloMosaic Idealize.SL.Sem

/-- The kernel as printed runs to the end, faults nowhere and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the four arguments, the kernel's result array ends at the layer of its arguments
    (Proof/Final.lean) and the reference's at the layer of its own (Proof/RefIsLayer.lean): the same array. -/
theorem algebraic : Cert.algebraic_KernelIdeal_ReferenceIdeal := by
  intro m ρ m' ρ' _ hagree
  refine ⟨fun c => Cert.MaskedDense.layer (Cert.KernelIdeal.Acc.batch m c) (Cert.KernelIdeal.Acc.weights m c)
    (Cert.KernelIdeal.Acc.factor m c) (Cert.KernelIdeal.Acc.bias m c), Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.reference_is_layer,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
